-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x4096 : Shape := ⟨2, ![8192, 4096]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_arg15 : FVec F S1024 .f32) (main_arg16 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  main_v83

def fn_part3 {F : FTy → Type} [FloatOps F] (main_arg11 : FVec F S1024x1024 .f32) (main_arg12 : FVec F S1024x1024 .f32) (main_arg13 : FVec F S1024 .f32) (main_arg14 : FVec F S1024 .f32) (main_arg15 : FVec F S1024 .f32) (main_arg16 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_v63 main_v67

def fn_part2 {F : FTy → Type} [FloatOps F] (main_arg7 : FVec F S1024x1024 .f32) (main_arg8 : FVec F S1024x1024 .f32) (main_arg9 : FVec F S1024x1024 .f32) (main_arg10 : FVec F S1024x1024 .f32) (main_arg11 : FVec F S1024x1024 .f32) (main_arg12 : FVec F S1024x1024 .f32) (main_arg13 : FVec F S1024 .f32) (main_arg14 : FVec F S1024 .f32) (main_arg15 : FVec F S1024 .f32) (main_arg16 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_v48 main_v49 main_v50

def fn_part1 {F : FTy → Type} [FloatOps F] (main_arg4 : FVec F S8192x4096 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024x1024 .f32) (main_arg12 : FVec F S1024x1024 .f32) (main_arg13 : FVec F S1024 .f32) (main_arg14 : FVec F S1024 .f32) (main_arg15 : FVec F S1024 .f32) (main_arg16 : FVec F S1024 .f32) (main_v13 : IVec S_ 1) (main_v16 : IVec S8192x4096 1) : IVec S_ 1 :=
  let main_c_5 : IVec S_ 1 := constantI S_ 1 1#1
  let main_v17 : IVec S_ 1 := (fun x v => Host.reduce IntOp.andi x v reducesTo_S8192x4096_S_d0_1 h_S_) main_v16 main_c_5
  let main_v18 : IVec S_ 1 := andi main_v13 main_v17
  let main_v19 : FVec F S8192x4096 .f32 := Host.absf main_arg4
  let main_cst_6 : FVec F S_ .f32 := constant S_ .f32 0x7F800000#32
  let main_v20 : FVec F S8192x4096 .f32 := broadcastInDim S8192x4096 ![] bcast_S_S8192x4096 main_cst_6
  let main_v21 : IVec S8192x4096 1 := cmpf .olt main_v19 main_v20
  let main_c_7 : IVec S_ 1 := constantI S_ 1 1#1
  let main_v22 : IVec S_ 1 := (fun x v => Host.reduce IntOp.andi x v reducesTo_S8192x4096_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S8192x1024 .f32) (main_arg1 : FVec F S8192x1024 .f32) (main_arg2 : FVec F S8192x1024 .f32) (main_arg3 : FVec F S8192x4096 .f32) (main_arg4 : FVec F S8192x4096 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024x1024 .f32) (main_arg12 : FVec F S1024x1024 .f32) (main_arg13 : FVec F S1024 .f32) (main_arg14 : FVec F S1024 .f32) (main_arg15 : FVec F S1024 .f32) (main_arg16 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x4096 .f32 := Host.absf main_arg3
  let main_cst_4 : FVec F S_ .f32 := constant S_ .f32 0x7F800000#32
  let main_v15 : FVec F S8192x4096 .f32 := broadcastInDim S8192x4096 ![] bcast_S_S8192x4096 main_cst_4
  let main_v16 : IVec S8192x4096 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S8192x1024 : Shape := ⟨2, ![8192, 1024]⟩
abbrev S8192x4096 : Shape := ⟨2, ![8192, 4096]⟩
abbrev S1024x1024 : Shape := ⟨2, ![1024, 1024]⟩
abbrev S1024 : Shape := ⟨1, ![1024]⟩
abbrev S1x1024 : Shape := ⟨2, ![1, 1024]⟩
abbrev S128x1024 : Shape := ⟨2, ![128, 1024]⟩
abbrev S128x4096 : Shape := ⟨2, ![128, 4096]⟩

abbrev nBuf : Space → Nat
  | .hbm => 31
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x4096, .f32⟩
  | .hbm, ⟨4, _⟩ => ⟨S8192x4096, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1024x1024, .bf16⟩
  | .hbm, ⟨24, _⟩ => ⟨S1024x1024, .bf16⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12_0 : Ref sig .tc := ⟨.hbm, 29, rfl⟩
abbrev main_v12_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc0_sem18_0 : DmaSem sig := 24
abbrev cc0_sem18_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S128x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  bitsLt_bf16_f32 : FTy.bits .bf16 < FTy.bits .f32
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  inb_S128x4096_S128x4096_0_0 : ∀ a, (![0, 0] : Fin 2 → Nat) a + S128x4096.size a ≤ S128x4096.size a
  h_S128x4096 : 0 < S128x4096.numel
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  dot_S128x1024_S1024x1024_S128x1024_1_1_0_0_n_n_wf : DotDims.WF S128x1024 S1024x1024 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S8192x4096.size a
  hwx0_3 : ∀ i : grid0.Coords, EltTy.bits .f32 = 32 ∨ (Rect.block (s := S8192x4096) S128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S8192x4096.size a
  hwx0_4 : ∀ i : grid0.Coords, EltTy.bits .f32 = 32 ∨ (Rect.block (s := S8192x4096) S128x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1024.size a ≤ S1024x1024.size a
  hwx0_11 : ∀ i : grid0.Coords, EltTy.bits .bf16 = 32 ∨ (Rect.block (s := S1024x1024) S1024x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S1024x1024.size a
  hwx0_12 : ∀ i : grid0.Coords, EltTy.bits .bf16 = 32 ∨ (Rect.block (s := S1024x1024) S1024x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1024.size a ≤ S1x1024.size a
  hwx0_15 : ∀ i : grid0.Coords, EltTy.bits .f32 = 32 ∨ (Rect.block (s := S1x1024) S1x1024.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1024.size a ≤ S1x1024.size a
  hwx0_16 : ∀ i : grid0.Coords, EltTy.bits .f32 = 32 ∨ (Rect.block (s := S1x1024) S1x1024.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S128x1024.size a ≤ S8192x1024.size a
  hwx0_17 : ∀ i : grid0.Coords, EltTy.bits .f32 = 32 ∨ (Rect.block (s := S8192x1024) S128x1024.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S128x1024.size a ≤ S8192x1024.size a
  hwx0_18 : ∀ i : grid0.Coords, EltTy.bits .f32 = 32 ∨ (Rect.block (s := S8192x1024) S128x1024.size (cc0_transform_18 i) (hinb0_18 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S1024x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S1024x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v10) S1x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v11) S1x1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v12_0) S128x1024.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v12_1) S128x1024.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x4096 : Shape := ⟨2, ![8192, 4096]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x4096, .f32⟩
  | .hbm, ⟨4, _⟩ => ⟨S8192x4096, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S1x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_v18 : Ref sig .tc := ⟨.hbm, 36, rfl⟩
abbrev main_v19 : Ref sig .tc := ⟨.hbm, 37, rfl⟩
abbrev main_cst_0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_1 : Ref sig .tc := ⟨.hbm, 51, rfl⟩
abbrev main_v32 : Ref sig .tc := ⟨.hbm, 52, rfl⟩
abbrev main_v33 : Ref sig .tc := ⟨.hbm, 53, rfl⟩
abbrev main_cst_2 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_3 : Ref sig .tc := ⟨.hbm, 67, rfl⟩
abbrev main_v46 : Ref sig .tc := ⟨.hbm, 68, rfl⟩
abbrev main_v47 : Ref sig .tc := ⟨.hbm, 69, rfl⟩
abbrev main_cst_4 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]

class Facts₀ : Prop where
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x1024_S8192x1024_1_1_0_0_n_n_wf : DotDims.WF S8192x1024 S1024x1024 S8192x1024 [1] [1] [0] [0] [] []

variable [Facts₀]

def dot_S8192x1024_S1024x1024_S8192x1024_1_1_0_0_n_n : DotDims S8192x1024 S1024x1024 S8192x1024 where
  lhsContracting := [1]
  rhsContracting := [1]
  lhsNonContracting := [0]
  rhsNonContracting := [0]
  lhsBatch := []
  rhsBatch := []
  wf := dot_S8192x1024_S1024x1024_S8192x1024_1_1_0_0_n_n_wf

class Facts : Prop extends Facts₀ where

variable [Facts]
-- ==== Proof.LstmSpec.lean ====
/-
  The mathematics both programs compute: one step of an LSTM cell with multiplicative input masks, written
  row by row on the extended reals.

  A batch row carries an input row x, a hidden row h and a cell row c (1024 entries each) and two mask rows of
  4096 lanes, whose four quarters mask the forget, input, output and candidate gates in that order. With weight
  matrices stored [out, in], entry q of a masked linear map is  Σ_k (a_k · ms_k) · W[q, k],  and a gate's
  pre-activation adds the input-side map, its bias, and the hidden-side map (in that association):

      pre_g(q) = (lin (x ⊙ mx_g) Wx_g q + b_g q) + lin (h ⊙ mh_g) Wh_g q.

  The candidate gate's hidden-side map reads x, not h. Then

      c'(q) = σ(pre_f q) · c(q) + σ(pre_i q) · tanh(pre_c q),      h'(q) = σ(pre_o q) · tanh(c'(q)),

  with σ the logistic function 1 / (1 + e^(−z)) of the extended reals. Nothing here needs an entry to be finite:
  the two programs form the same sums and products in the same association.
-/
import Idealize.ShloMosaic.PureOps.Ideal
import Idealize.ShloMosaic.Lib.ValueIdx

noncomputable section

namespace Cert.Lstm

open Idealize.ShloMosaic Idealize.ShloMosaic.ValueIdx

/-- Row `r` of a two-axis array, as a function of the column. -/
def rowOf {R C : Nat} (A : (⟨2, ![R, C]⟩ : Shape).Idx → EReal) (r : Fin R) : Fin C → EReal :=
  fun k => A (ix2 r k)

/-- A one-axis array as a function of its coordinate. -/
def vecOf {n : Nat} (b : (⟨1, ![n]⟩ : Shape).Idx → EReal) : Fin n → EReal := fun q => b (ix1 q)

/-- Quarter `g` of a row of 4096 mask lanes: lanes `1024 g` to `1024 g + 1023`. -/
def seg (g : Fin 4) (ms : Fin 4096 → EReal) : Fin 1024 → EReal :=
  fun k => ms ⟨1024 * g.val + k.val, by have := g.isLt; have := k.isLt; omega⟩

/-- Entry `q` of a masked row through a weight matrix stored [out, in]: Σ_k (a_k · ms_k) · W[q, k]. -/
def lin (a ms : Fin 1024 → EReal) (W : (⟨2, ![1024, 1024]⟩ : Shape).Idx → EReal) (q : Fin 1024) : EReal :=
  ∑ k : Fin 1024, (a k * ms k) * W (ix2 q k)

/-- A gate's pre-activation at entry `q`: the input-side map plus its bias, plus the hidden-side map. -/
def pre (a ma : Fin 1024 → EReal) (W : (⟨2, ![1024, 1024]⟩ : Shape).Idx → EReal) (b : Fin 1024 → EReal)
    (a' ma' : Fin 1024 → EReal) (W' : (⟨2, ![1024, 1024]⟩ : Shape).Idx → EReal) (q : Fin 1024) : EReal :=
  (lin a ma W q + b q) + lin a' ma' W' q

/-- The new cell state of one batch row at entry `q`. -/
def cellC (x h c : Fin 1024 → EReal) (mx mh : Fin 4096 → EReal)
    (Wxi Wxf Wxc Whi Whf Whc : (⟨2, ![1024, 1024]⟩ : Shape).Idx → EReal) (bi bf bc : Fin 1024 → EReal)
    (q : Fin 1024) : EReal :=
  Ideal.logistic (pre x (seg 0 mx) Wxf bf h (seg 0 mh) Whf q) * c q
    + Ideal.logistic (pre x (seg 1 mx) Wxi bi h (seg 1 mh) Whi q)
      * Ideal.tanh (pre x (seg 3 mx) Wxc bc x (seg 3 mh) Whc q)

/-- The new hidden state of one batch row at entry `q`. -/
def cellH (x h c : Fin 1024 → EReal) (mx mh : Fin 4096 → EReal)
    (Wxi Wxf Wxc Wxo Whi Whf Whc Who : (⟨2, ![1024, 1024]⟩ : Shape).Idx → EReal) (bi bf bc bo : Fin 1024 → EReal)
    (q : Fin 1024) : EReal :=
  Ideal.logistic (pre x (seg 2 mx) Wxo bo h (seg 2 mh) Who q)
    * Ideal.tanh (cellC x h c mx mh Wxi Wxf Wxc Whi Whf Whc bi bf bc q)

/-- The new cell state of the whole batch: row `i 0` of each batch array through `cellC`, at entry `i 1`. -/
def newC (X H C : (⟨2, ![8192, 1024]⟩ : Shape).Idx → EReal) (MX MH : (⟨2, ![8192, 4096]⟩ : Shape).Idx → EReal)
    (Wxi Wxf Wxc Whi Whf Whc : (⟨2, ![1024, 1024]⟩ : Shape).Idx → EReal)
    (bi bf bc : (⟨1, ![1024]⟩ : Shape).Idx → EReal) : (⟨2, ![8192, 1024]⟩ : Shape).Idx → EReal :=
  fun i => cellC (rowOf X (i 0)) (rowOf H (i 0)) (rowOf C (i 0)) (rowOf MX (i 0)) (rowOf MH (i 0))
    Wxi Wxf Wxc Whi Whf Whc (vecOf bi) (vecOf bf) (vecOf bc) (i 1)

/-- The new hidden state of the whole batch. -/
def newH (X H C : (⟨2, ![8192, 1024]⟩ : Shape).Idx → EReal) (MX MH : (⟨2, ![8192, 4096]⟩ : Shape).Idx → EReal)
    (Wxi Wxf Wxc Wxo Whi Whf Whc Who : (⟨2, ![1024, 1024]⟩ : Shape).Idx → EReal)
    (bi bf bc bo : (⟨1, ![1024]⟩ : Shape).Idx → EReal) : (⟨2, ![8192, 1024]⟩ : Shape).Idx → EReal :=
  fun i => cellH (rowOf X (i 0)) (rowOf H (i 0)) (rowOf C (i 0)) (rowOf MX (i 0)) (rowOf MH (i 0))
    Wxi Wxf Wxc Wxo Whi Whf Whc Who (vecOf bi) (vecOf bf) (vecOf bc) (vecOf bo) (i 1)

end Cert.Lstm

end
-- ==== Proof.KernelCell.lean ====
/-
  One grid point of the kernel, read entry by entry at the extended reals.

  The body forms every gate the same way: a block of 128 batch rows times a quarter of the point's mask block,
  narrowed to bf16 (the identity on extended reals), through a weight matrix stored [out, in] by a matrix product
  into a zero accumulator, plus the bias row broadcast down the 128 rows, plus the hidden-side product. Read at
  row p and entry q of the block, that is `Cert.Lstm.pre` of row p of each block. The two stored values are then
  `Cert.Lstm.cellC` and `Cert.Lstm.cellH` of those rows.
-/
import proofs.«133295_j35476429865299_1_alg».proof.Proof.Gen.KernelIdeal.Skeleton
import proofs.«133295_j35476429865299_1_alg».proof.Proof.LstmSpec
import Idealize.ShloMosaic.Lib.Pipeline.Value
import Idealize.ShloMosaic.Lib.ValueIdx
import Idealize.ShloMosaic.PureOps.Ideal.Laws

noncomputable section

namespace Cert.KernelIdeal.Cell

open Cert.KernelIdeal Cert.KernelIdeal.Gen Cert.Lstm Idealize.ShloMosaic Idealize.ShloMosaic.ValueIdx

/-! ## The matrix product at an entry -/

theorem lhs_row (i : S128x1024.Idx) (q : dot_S128x1024_S1024x1024_S128x1024_1_1_0_0_n_n.contr.Idx) :
    (dot_S128x1024_S1024x1024_S128x1024_1_1_0_0_n_n.lhsIdx i q 0).val = (i 0).val := by
  unfold DotDims.lhsIdx
  rw [dif_neg (show ¬(0 : Fin S128x1024.rank) ∈ dot_S128x1024_S1024x1024_S128x1024_1_1_0_0_n_n.lhsBatch by decide), dif_pos (show (0 : Fin S128x1024.rank) ∈ dot_S128x1024_S1024x1024_S128x1024_1_1_0_0_n_n.lhsNonContracting by decide)]
  rfl
theorem lhs_contr (i : S128x1024.Idx) (q : dot_S128x1024_S1024x1024_S128x1024_1_1_0_0_n_n.contr.Idx) :
    (dot_S128x1024_S1024x1024_S128x1024_1_1_0_0_n_n.lhsIdx i q 1).val = (q ⟨0, by decide⟩).val :=
  dot_S128x1024_S1024x1024_S128x1024_1_1_0_0_n_n.lhsIdx_val_of_single rfl i q
theorem rhs_row (i : S128x1024.Idx) (q : dot_S128x1024_S1024x1024_S128x1024_1_1_0_0_n_n.contr.Idx) :
    (dot_S128x1024_S1024x1024_S128x1024_1_1_0_0_n_n.rhsIdx i q 0).val = (i 1).val := by
  unfold DotDims.rhsIdx
  rw [dif_neg (show ¬(0 : Fin S1024x1024.rank) ∈ dot_S128x1024_S1024x1024_S128x1024_1_1_0_0_n_n.rhsBatch by decide), dif_pos (show (0 : Fin S1024x1024.rank) ∈ dot_S128x1024_S1024x1024_S128x1024_1_1_0_0_n_n.rhsNonContracting by decide)]
  rfl
theorem rhs_contr (i : S128x1024.Idx) (q : dot_S128x1024_S1024x1024_S128x1024_1_1_0_0_n_n.contr.Idx) :
    (dot_S128x1024_S1024x1024_S128x1024_1_1_0_0_n_n.rhsIdx i q 1).val = (q ⟨0, by decide⟩).val :=
  dot_S128x1024_S1024x1024_S128x1024_1_1_0_0_n_n.rhsIdx_val_of_single rfl i q

/-- The body's matrix product into a zero accumulator, at row `p` and entry `q`: both operands are contracted
    along their second axis, so it is Σ_k l[p, k] · r[q, k]. -/
theorem matmul_at (l : FVec Ideal S128x1024 .bf16) (r : FVec Ideal S1024x1024 .bf16) (p : Fin 128) (q : Fin 1024) :
    matmul dot_S128x1024_S1024x1024_S128x1024_1_1_0_0_n_n none l r (constant S128x1024 .f32 0x00000000#32) (ix2 p q)
      = ∑ k : Fin 1024, l (ix2 p k) * r (ix2 q k) := by
  simp only [matmul]
  rw [Ideal.matmul_constant_zero_apply, ← Equiv.sum_comp (ValueIdx.contrEquiv1 dot_S128x1024_S1024x1024_S128x1024_1_1_0_0_n_n 1024 rfl rfl).symm]
  refine Finset.sum_congr rfl fun k _ => ?_
  have hk := ValueIdx.contrEquiv1_symm_val dot_S128x1024_S1024x1024_S128x1024_1_1_0_0_n_n 1024 rfl rfl k
  have el : dot_S128x1024_S1024x1024_S128x1024_1_1_0_0_n_n.lhsIdx (ix2 p q) ((ValueIdx.contrEquiv1 dot_S128x1024_S1024x1024_S128x1024_1_1_0_0_n_n 1024 rfl rfl).symm k) = ix2 p k := funext fun a => Fin.ext (by
    match a with
    | ⟨0, _⟩ => exact lhs_row _ _
    | ⟨1, _⟩ => exact (lhs_contr _ _).trans hk)
  have er : dot_S128x1024_S1024x1024_S128x1024_1_1_0_0_n_n.rhsIdx (ix2 p q) ((ValueIdx.contrEquiv1 dot_S128x1024_S1024x1024_S128x1024_1_1_0_0_n_n 1024 rfl rfl).symm k) = ix2 q k := funext fun a => Fin.ext (by
    match a with
    | ⟨0, _⟩ => exact rhs_row _ _
    | ⟨1, _⟩ => exact (rhs_contr _ _).trans hk)
  rw [el, er]

/-! ## A masked row through a weight matrix -/

/-- The product of a block with a mask block, narrowed to bf16, through a weight matrix: at row `p`, entry `q`
    it is the masked linear map of row `p`. Narrowing and the weight's shape cast onto its own shape are identities. -/
theorem lin_at (a ms : FVec Ideal S128x1024 .f32) (W : FVec Ideal S1024x1024 .bf16) (p : Fin 128) (q : Fin 1024) :
    matmul dot_S128x1024_S1024x1024_S128x1024_1_1_0_0_n_n none (truncf .bf16 (mulf a ms) bitsLt_bf16_f32)
        (shapeCast S1024x1024 W shapeCasts_S1024x1024_S1024x1024) (constant S128x1024 .f32 0x00000000#32) (ix2 p q)
      = lin (rowOf a p) (rowOf ms p) W q := by
  rw [matmul_at, shapeCast_self]
  rfl

/-- The bias row, shape-cast onto its own shape and broadcast down the block's rows, read at any row. -/
theorem bias_at (b : FVec Ideal S1x1024 .f32) (p : Fin 128) (q : Fin 1024) :
    broadcastTo S128x1024 (shapeCast S1x1024 b shapeCasts_S1x1024_S1x1024) broadcasts_S1x1024_S128x1024 (ix2 p q)
      = rowOf b 0 q := by
  rw [shapeCast_self]
  exact broadcastTo_apply b broadcasts_S1x1024_S128x1024 (ix2 p q) (ix2 0 q) (fun a => match a with
    | ⟨0, _⟩ => by show 0 = if (1 : Nat) = 1 then 0 else _; rw [if_pos rfl]
    | ⟨1, _⟩ => by show q.val = if (1024 : Nat) = 1 then 0 else q.val; rw [if_neg (by decide)])

/-! ## The four quarters of a mask block, row by row -/

theorem quarter0 (v : FVec Ideal S128x4096 .f32) (p : Fin 128) :
    rowOf (extractStridedSlice S128x1024 ![0, 0] v slices_S128x4096_o0_0_S128x1024) p = seg 0 (rowOf v p) := by
  funext k
  exact extractStridedSlice_apply ![0, 0] v slices_S128x4096_o0_0_S128x1024 (ix2 p k) _ (fun a => match a with
    | ⟨0, _⟩ => by show p.val = 0 + p.val; omega
    | ⟨1, _⟩ => by show 1024 * 0 + k.val = 0 + k.val; omega)
theorem quarter1 (v : FVec Ideal S128x4096 .f32) (p : Fin 128) :
    rowOf (extractStridedSlice S128x1024 ![0, 1024] v slices_S128x4096_o0_1024_S128x1024) p = seg 1 (rowOf v p) := by
  funext k
  exact extractStridedSlice_apply ![0, 1024] v slices_S128x4096_o0_1024_S128x1024 (ix2 p k) _ (fun a => match a with
    | ⟨0, _⟩ => by show p.val = 0 + p.val; omega
    | ⟨1, _⟩ => by show 1024 * 1 + k.val = 1024 + k.val; omega)
theorem quarter2 (v : FVec Ideal S128x4096 .f32) (p : Fin 128) :
    rowOf (extractStridedSlice S128x1024 ![0, 2048] v slices_S128x4096_o0_2048_S128x1024) p = seg 2 (rowOf v p) := by
  funext k
  exact extractStridedSlice_apply ![0, 2048] v slices_S128x4096_o0_2048_S128x1024 (ix2 p k) _ (fun a => match a with
    | ⟨0, _⟩ => by show p.val = 0 + p.val; omega
    | ⟨1, _⟩ => by show 1024 * 2 + k.val = 2048 + k.val; omega)
theorem quarter3 (v : FVec Ideal S128x4096 .f32) (p : Fin 128) :
    rowOf (extractStridedSlice S128x1024 ![0, 3072] v slices_S128x4096_o0_3072_S128x1024) p = seg 3 (rowOf v p) := by
  funext k
  exact extractStridedSlice_apply ![0, 3072] v slices_S128x4096_o0_3072_S128x1024 (ix2 p k) _ (fun a => match a with
    | ⟨0, _⟩ => by show p.val = 0 + p.val; omega
    | ⟨1, _⟩ => by show 1024 * 3 + k.val = 3072 + k.val; omega)

/-! ## A gate's pre-activation block -/

/-- The pre-activation block of a gate: input-side product plus bias, plus hidden-side product. -/
def gateV (a ma : FVec Ideal S128x1024 .f32) (W : FVec Ideal S1024x1024 .bf16) (b : FVec Ideal S1x1024 .f32)
    (a' ma' : FVec Ideal S128x1024 .f32) (W' : FVec Ideal S1024x1024 .bf16) : FVec Ideal S128x1024 .f32 :=
  addf (addf (matmul dot_S128x1024_S1024x1024_S128x1024_1_1_0_0_n_n none (truncf .bf16 (mulf a ma) bitsLt_bf16_f32)
          (shapeCast S1024x1024 W shapeCasts_S1024x1024_S1024x1024) (constant S128x1024 .f32 0x00000000#32))
        (broadcastTo S128x1024 (shapeCast S1x1024 b shapeCasts_S1x1024_S1x1024) broadcasts_S1x1024_S128x1024))
    (matmul dot_S128x1024_S1024x1024_S128x1024_1_1_0_0_n_n none (truncf .bf16 (mulf a' ma') bitsLt_bf16_f32)
      (shapeCast S1024x1024 W' shapeCasts_S1024x1024_S1024x1024) (constant S128x1024 .f32 0x00000000#32))

/-- At row `p`, entry `q`, it is `pre` of row `p` of each block. -/
theorem gateV_at (a ma : FVec Ideal S128x1024 .f32) (W : FVec Ideal S1024x1024 .bf16) (b : FVec Ideal S1x1024 .f32)
    (a' ma' : FVec Ideal S128x1024 .f32) (W' : FVec Ideal S1024x1024 .bf16) (p : Fin 128) (q : Fin 1024) :
    gateV a ma W b a' ma' W' (ix2 p q)
      = pre (rowOf a p) (rowOf ma p) W (rowOf b 0) (rowOf a' p) (rowOf ma' p) W' q := by
  unfold gateV
  rw [addf_apply, addf_apply, lin_at, bias_at, lin_at]
  rfl

/-! ## The body's payloads as gates -/

theorem forget_eq (x0 x1 : Vec Ideal S128x1024 .f32) (x3 x4 : Vec Ideal S128x4096 .f32) (w : Vec Ideal S1024x1024 .bf16)
    (b : Vec Ideal S1x1024 .f32) (wh : Vec Ideal S1024x1024 .bf16) :
    k0_pay8 x0 x1 x3 x4 w b wh
      = logistic (gateV x0 (extractStridedSlice S128x1024 ![0, 0] x3 slices_S128x4096_o0_0_S128x1024) w b
          x1 (extractStridedSlice S128x1024 ![0, 0] x4 slices_S128x4096_o0_0_S128x1024) wh) := rfl

theorem input_eq (x0 x1 : Vec Ideal S128x1024 .f32) (x3 x4 : Vec Ideal S128x4096 .f32) (w : Vec Ideal S1024x1024 .bf16)
    (b : Vec Ideal S1x1024 .f32) (wh : Vec Ideal S1024x1024 .bf16) :
    k0_pay11 x1 (k0_pay5 x4) (k0_pay9 x0 x3 w) (k0_pay10 b) wh
      = logistic (gateV x0 (extractStridedSlice S128x1024 ![0, 1024] x3 slices_S128x4096_o0_1024_S128x1024) w b
          x1 (extractStridedSlice S128x1024 ![0, 1024] x4 slices_S128x4096_o0_1024_S128x1024) wh) := rfl

theorem output_eq (x0 x1 : Vec Ideal S128x1024 .f32) (x3 x4 : Vec Ideal S128x4096 .f32) (w : Vec Ideal S1024x1024 .bf16)
    (b : Vec Ideal S1x1024 .f32) (wh : Vec Ideal S1024x1024 .bf16) :
    k0_pay12 x0 x1 (k0_pay3 x3) (k0_pay6 x4) w b wh
      = logistic (gateV x0 (extractStridedSlice S128x1024 ![0, 2048] x3 slices_S128x4096_o0_2048_S128x1024) w b
          x1 (extractStridedSlice S128x1024 ![0, 2048] x4 slices_S128x4096_o0_2048_S128x1024) wh) := rfl

theorem candidate_eq (x0 : Vec Ideal S128x1024 .f32) (x3 x4 : Vec Ideal S128x4096 .f32) (w : Vec Ideal S1024x1024 .bf16)
    (b : Vec Ideal S1x1024 .f32) (wh : Vec Ideal S1024x1024 .bf16) :
    k0_pay13 x0 (k0_pay4 x3) (k0_pay7 x4) w b wh
      = tanh (gateV x0 (extractStridedSlice S128x1024 ![0, 3072] x3 slices_S128x4096_o0_3072_S128x1024) w b
          x0 (extractStridedSlice S128x1024 ![0, 3072] x4 slices_S128x4096_o0_3072_S128x1024) wh) := rfl

theorem logistic_at {s : Shape} {φ : FTy} (v : FVec Ideal s φ) (i : s.Idx) : logistic v i = Ideal.logistic (v i) := rfl
theorem tanh_at {s : Shape} {φ : FTy} (v : FVec Ideal s φ) (i : s.Idx) : tanh v i = Ideal.tanh (v i) := rfl

/-! ## The two stored values -/

theorem cellstate_eq (v2 : Vec Ideal S128x1024 .f32) (v28 v44 v76 : FVec Ideal S128x1024 .f32) :
    k0_pay1 v2 v28 v44 v76 = addf (mulf v28 v2) (mulf v44 v76) := rfl
theorem hidden_eq (v2 : Vec Ideal S128x1024 .f32) (v28 v44 v60 v76 : FVec Ideal S128x1024 .f32) :
    k0_pay2 v2 v28 v44 v60 v76 = mulf v60 (tanh (k0_pay1 v2 v28 v44 v76)) := rfl

/-- The value stored to the cell-state output block, at row `p` and entry `q`. -/
theorem storedC_at (x0 x1 x2 : Vec Ideal S128x1024 .f32) (x3 x4 : Vec Ideal S128x4096 .f32)
    (w5 w6 w7 w9 w10 w11 : Vec Ideal S1024x1024 .bf16) (b13 b14 b15 : Vec Ideal S1x1024 .f32) (p : Fin 128) (q : Fin 1024) :
    k0_pay1 x2 (k0_pay8 x0 x1 x3 x4 w6 b14 w10) (k0_pay11 x1 (k0_pay5 x4) (k0_pay9 x0 x3 w5) (k0_pay10 b13) w9)
        (k0_pay13 x0 (k0_pay4 x3) (k0_pay7 x4) w7 b15 w11) (ix2 p q)
      = cellC (rowOf x0 p) (rowOf x1 p) (rowOf x2 p) (rowOf x3 p) (rowOf x4 p) w5 w6 w7 w9 w10 w11
          (rowOf b13 0) (rowOf b14 0) (rowOf b15 0) q := by
  rw [cellstate_eq, forget_eq, input_eq, candidate_eq, addf_apply, mulf_apply, mulf_apply, logistic_at, logistic_at, tanh_at, gateV_at, gateV_at, gateV_at,
    quarter0, quarter0, quarter1, quarter1, quarter3, quarter3]
  rfl

/-- The value stored to the hidden-state output block, at row `p` and entry `q`. -/
theorem storedH_at (x0 x1 x2 : Vec Ideal S128x1024 .f32) (x3 x4 : Vec Ideal S128x4096 .f32)
    (w5 w6 w7 w8 w9 w10 w11 w12 : Vec Ideal S1024x1024 .bf16) (b13 b14 b15 b16 : Vec Ideal S1x1024 .f32) (p : Fin 128) (q : Fin 1024) :
    k0_pay2 x2 (k0_pay8 x0 x1 x3 x4 w6 b14 w10) (k0_pay11 x1 (k0_pay5 x4) (k0_pay9 x0 x3 w5) (k0_pay10 b13) w9)
        (k0_pay12 x0 x1 (k0_pay3 x3) (k0_pay6 x4) w8 b16 w12) (k0_pay13 x0 (k0_pay4 x3) (k0_pay7 x4) w7 b15 w11) (ix2 p q)
      = cellH (rowOf x0 p) (rowOf x1 p) (rowOf x2 p) (rowOf x3 p) (rowOf x4 p) w5 w6 w7 w8 w9 w10 w11 w12
          (rowOf b13 0) (rowOf b14 0) (rowOf b15 0) (rowOf b16 0) q := by
  rw [hidden_eq, mulf_apply, tanh_at, storedC_at, output_eq, logistic_at, gateV_at, quarter2, quarter2]
  rfl

end Cert.KernelIdeal.Cell

end
-- ==== Proof.KernelWhole.lean ====
/-
  From grid points to whole arrays, for the kernel.

  Grid point t (of 64) works on batch rows 128 t … 128 t + 127: its block of each batch-indexed array (the input,
  hidden and cell rows, and the two mask arrays) is those rows, while every weight matrix and bias row is the same
  whole array at every point. The weight arrays the region finds are the arguments narrowed to bf16 on the host,
  which is the identity on extended reals, and the bias arrays are the arguments reshaped from [1024] to
  [1, 1024]. So what point t writes back is rows 128 t … 128 t + 127 of `Cert.Lstm.newH` and `Cert.Lstm.newC` of the
  argument arrays; the 64 blocks tile the 8192 rows, so each result array ends holding that function everywhere.
-/
import proofs.«133295_j35476429865299_1_alg».proof.Proof.Gen.KernelIdeal.Value
import proofs.«133295_j35476429865299_1_alg».proof.Proof.KernelCell
import Idealize.ShloMosaic.Lib.Pipeline.Value
import Idealize.ShloMosaic.Lib.StableHlo.Run
import Idealize.ShloMosaic.Lib.ValueIdx

set_option maxRecDepth 16384

noncomputable section

namespace Cert.KernelIdeal.Whole

open Cert.KernelIdeal Cert.KernelIdeal.Gen Cert.KernelIdeal.Cell Cert.Lstm
open Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## Which block each window reads at a grid point -/

/-- The printed index maps, decided over the 64 grid points: the batch-indexed windows (and both outputs) are at
    block row `t`, column block 0; every weight and bias window is at block (0, 0). -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_17.index t (0 : Fin 2) = t.val
    ∧ win0_17.index t (1 : Fin 2) = 0
    ∧ win0_18.index t (0 : Fin 2) = t.val
    ∧ win0_18.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0
    ∧ win0_15.index t (0 : Fin 2) = 0
    ∧ win0_15.index t (1 : Fin 2) = 0
    ∧ win0_16.index t (0 : Fin 2) = 0
    ∧ win0_16.index t (1 : Fin 2) = 0 :=
  (by decide +kernel : ∀ t : Fin grid0.N, _)

/-! ## The arrays the host writes before the region -/

theorem hostW5 (c : Dev nD) :
    (V m c main_v0 : S1024x1024.Idx → EReal) = ((m ((c : Thread nD τ).loc main_arg5)) : S1024x1024.Idx → EReal) := by
  dsimp only [Gen.V, Gen.hostOps0]
  after_results
  rfl

theorem hostW6 (c : Dev nD) :
    (V m c main_v1 : S1024x1024.Idx → EReal) = ((m ((c : Thread nD τ).loc main_arg6)) : S1024x1024.Idx → EReal) := by
  dsimp only [Gen.V, Gen.hostOps0]
  after_results
  rfl

theorem hostW7 (c : Dev nD) :
    (V m c main_v2 : S1024x1024.Idx → EReal) = ((m ((c : Thread nD τ).loc main_arg7)) : S1024x1024.Idx → EReal) := by
  dsimp only [Gen.V, Gen.hostOps0]
  after_results
  rfl

theorem hostW8 (c : Dev nD) :
    (V m c main_v3 : S1024x1024.Idx → EReal) = ((m ((c : Thread nD τ).loc main_arg8)) : S1024x1024.Idx → EReal) := by
  dsimp only [Gen.V, Gen.hostOps0]
  after_results
  rfl

theorem hostW9 (c : Dev nD) :
    (V m c main_v4 : S1024x1024.Idx → EReal) = ((m ((c : Thread nD τ).loc main_arg9)) : S1024x1024.Idx → EReal) := by
  dsimp only [Gen.V, Gen.hostOps0]
  after_results
  rfl

theorem hostW10 (c : Dev nD) :
    (V m c main_v5 : S1024x1024.Idx → EReal) = ((m ((c : Thread nD τ).loc main_arg10)) : S1024x1024.Idx → EReal) := by
  dsimp only [Gen.V, Gen.hostOps0]
  after_results
  rfl

theorem hostW11 (c : Dev nD) :
    (V m c main_v6 : S1024x1024.Idx → EReal) = ((m ((c : Thread nD τ).loc main_arg11)) : S1024x1024.Idx → EReal) := by
  dsimp only [Gen.V, Gen.hostOps0]
  after_results
  rfl

theorem hostW12 (c : Dev nD) :
    (V m c main_v7 : S1024x1024.Idx → EReal) = ((m ((c : Thread nD τ).loc main_arg12)) : S1024x1024.Idx → EReal) := by
  dsimp only [Gen.V, Gen.hostOps0]
  after_results
  rfl

theorem hostB13 (c : Dev nD) :
    rowOf (V m c main_v8 : S1x1024.Idx → EReal) 0 = vecOf ((m ((c : Thread nD τ).loc main_arg13)) : S1024.Idx → EReal) := by
  have e : (V m c main_v8 : S1x1024.Idx → EReal)
      = shapeCast S1x1024 ((m ((c : Thread nD τ).loc main_arg13)) : S1024.Idx → EReal) shapeCasts_S1024_S1x1024 := by
    dsimp only [Gen.V, Gen.hostOps0]
    after_results
    rfl
  rw [e]
  funext q
  exact shapeCast_apply _ shapeCasts_S1024_S1x1024 (ix2 0 q) (ix1 q) (by
    rw [Shape.rowMajor_val_one, Shape.rowMajor_val_two]
    show q.val = 0 * 1024 + q.val
    omega)

theorem hostB14 (c : Dev nD) :
    rowOf (V m c main_v9 : S1x1024.Idx → EReal) 0 = vecOf ((m ((c : Thread nD τ).loc main_arg14)) : S1024.Idx → EReal) := by
  have e : (V m c main_v9 : S1x1024.Idx → EReal)
      = shapeCast S1x1024 ((m ((c : Thread nD τ).loc main_arg14)) : S1024.Idx → EReal) shapeCasts_S1024_S1x1024 := by
    dsimp only [Gen.V, Gen.hostOps0]
    after_results
    rfl
  rw [e]
  funext q
  exact shapeCast_apply _ shapeCasts_S1024_S1x1024 (ix2 0 q) (ix1 q) (by
    rw [Shape.rowMajor_val_one, Shape.rowMajor_val_two]
    show q.val = 0 * 1024 + q.val
    omega)

theorem hostB15 (c : Dev nD) :
    rowOf (V m c main_v10 : S1x1024.Idx → EReal) 0 = vecOf ((m ((c : Thread nD τ).loc main_arg15)) : S1024.Idx → EReal) := by
  have e : (V m c main_v10 : S1x1024.Idx → EReal)
      = shapeCast S1x1024 ((m ((c : Thread nD τ).loc main_arg15)) : S1024.Idx → EReal) shapeCasts_S1024_S1x1024 := by
    dsimp only [Gen.V, Gen.hostOps0]
    after_results
    rfl
  rw [e]
  funext q
  exact shapeCast_apply _ shapeCasts_S1024_S1x1024 (ix2 0 q) (ix1 q) (by
    rw [Shape.rowMajor_val_one, Shape.rowMajor_val_two]
    show q.val = 0 * 1024 + q.val
    omega)

theorem hostB16 (c : Dev nD) :
    rowOf (V m c main_v11 : S1x1024.Idx → EReal) 0 = vecOf ((m ((c : Thread nD τ).loc main_arg16)) : S1024.Idx → EReal) := by
  have e : (V m c main_v11 : S1x1024.Idx → EReal)
      = shapeCast S1x1024 ((m ((c : Thread nD τ).loc main_arg16)) : S1024.Idx → EReal) shapeCasts_S1024_S1x1024 := by
    dsimp only [Gen.V, Gen.hostOps0]
    after_results
    rfl
  rw [e]
  funext q
  exact shapeCast_apply _ shapeCasts_S1024_S1x1024 (ix2 0 q) (ix1 q) (by
    rw [Shape.rowMajor_val_one, Shape.rowMajor_val_two]
    show q.val = 0 * 1024 + q.val
    omega)

/-! ## The blocks of a grid point, row by row -/

theorem point_lt (t : Fin cfg0.N) : t.val < 64 := by
  have h : t.val < grid0.N := t.isLt
  rw [N_0] at h
  exact h

/-- The batch row that row `p` of grid point `t`'s block is. -/
def rowAt (t : Fin cfg0.N) (p : Fin 128) : Fin 8192 :=
  ⟨128 * t.val + p.val, by have := point_lt t; have := p.isLt; omega⟩

theorem rows0 (c : Dev nD) (t : Fin cfg0.N) (p : Fin 128) :
    rowOf (iblk m c 0 t : S128x1024.Idx → EReal) p
      = rowOf ((m ((c : Thread nD τ).loc main_arg0)) : S8192x1024.Idx → EReal) (rowAt t p) := by
  obtain ⟨h0_0, h0_1, h1_0, h1_1, h2_0, h2_1, h3_0, h3_1, h4_0, h4_1, h17_0, h17_1, h18_0, h18_1, h5_0, h5_1, h6_0, h6_1, h7_0, h7_1, h8_0, h8_1, h9_0, h9_1, h10_0, h10_1, h11_0, h11_1, h12_0, h12_1, h13_0, h13_1, h14_0, h14_1, h15_0, h15_1, h16_0, h16_1⟩ := idx_facts t
  funext k
  rw [← V_main_arg0 m c]
  show V m c main_arg0 (((cfg0.win 0).blk t).view.emb (ix2 p k)) = V m c main_arg0 _
  refine congrArg (V m c main_arg0) (funext fun a => Fin.ext ?_)
  match a with
  | ⟨0, _⟩ => show win0_0.index t (0 : Fin 2) * 128 + 1 * p.val = 128 * t.val + p.val; rw [h0_0]; omega
  | ⟨1, _⟩ => show win0_0.index t (1 : Fin 2) * 1024 + 1 * k.val = k.val; rw [h0_1]; omega

theorem rows1 (c : Dev nD) (t : Fin cfg0.N) (p : Fin 128) :
    rowOf (iblk m c 1 t : S128x1024.Idx → EReal) p
      = rowOf ((m ((c : Thread nD τ).loc main_arg1)) : S8192x1024.Idx → EReal) (rowAt t p) := by
  obtain ⟨h0_0, h0_1, h1_0, h1_1, h2_0, h2_1, h3_0, h3_1, h4_0, h4_1, h17_0, h17_1, h18_0, h18_1, h5_0, h5_1, h6_0, h6_1, h7_0, h7_1, h8_0, h8_1, h9_0, h9_1, h10_0, h10_1, h11_0, h11_1, h12_0, h12_1, h13_0, h13_1, h14_0, h14_1, h15_0, h15_1, h16_0, h16_1⟩ := idx_facts t
  funext k
  rw [← V_main_arg1 m c]
  show V m c main_arg1 (((cfg0.win 1).blk t).view.emb (ix2 p k)) = V m c main_arg1 _
  refine congrArg (V m c main_arg1) (funext fun a => Fin.ext ?_)
  match a with
  | ⟨0, _⟩ => show win0_1.index t (0 : Fin 2) * 128 + 1 * p.val = 128 * t.val + p.val; rw [h1_0]; omega
  | ⟨1, _⟩ => show win0_1.index t (1 : Fin 2) * 1024 + 1 * k.val = k.val; rw [h1_1]; omega

theorem rows2 (c : Dev nD) (t : Fin cfg0.N) (p : Fin 128) :
    rowOf (iblk m c 2 t : S128x1024.Idx → EReal) p
      = rowOf ((m ((c : Thread nD τ).loc main_arg2)) : S8192x1024.Idx → EReal) (rowAt t p) := by
  obtain ⟨h0_0, h0_1, h1_0, h1_1, h2_0, h2_1, h3_0, h3_1, h4_0, h4_1, h17_0, h17_1, h18_0, h18_1, h5_0, h5_1, h6_0, h6_1, h7_0, h7_1, h8_0, h8_1, h9_0, h9_1, h10_0, h10_1, h11_0, h11_1, h12_0, h12_1, h13_0, h13_1, h14_0, h14_1, h15_0, h15_1, h16_0, h16_1⟩ := idx_facts t
  funext k
  rw [← V_main_arg2 m c]
  show V m c main_arg2 (((cfg0.win 2).blk t).view.emb (ix2 p k)) = V m c main_arg2 _
  refine congrArg (V m c main_arg2) (funext fun a => Fin.ext ?_)
  match a with
  | ⟨0, _⟩ => show win0_2.index t (0 : Fin 2) * 128 + 1 * p.val = 128 * t.val + p.val; rw [h2_0]; omega
  | ⟨1, _⟩ => show win0_2.index t (1 : Fin 2) * 1024 + 1 * k.val = k.val; rw [h2_1]; omega

theorem rows3 (c : Dev nD) (t : Fin cfg0.N) (p : Fin 128) :
    rowOf (iblk m c 3 t : S128x4096.Idx → EReal) p
      = rowOf ((m ((c : Thread nD τ).loc main_arg3)) : S8192x4096.Idx → EReal) (rowAt t p) := by
  obtain ⟨h0_0, h0_1, h1_0, h1_1, h2_0, h2_1, h3_0, h3_1, h4_0, h4_1, h17_0, h17_1, h18_0, h18_1, h5_0, h5_1, h6_0, h6_1, h7_0, h7_1, h8_0, h8_1, h9_0, h9_1, h10_0, h10_1, h11_0, h11_1, h12_0, h12_1, h13_0, h13_1, h14_0, h14_1, h15_0, h15_1, h16_0, h16_1⟩ := idx_facts t
  funext k
  rw [← V_main_arg3 m c]
  show V m c main_arg3 (((cfg0.win 3).blk t).view.emb (ix2 p k)) = V m c main_arg3 _
  refine congrArg (V m c main_arg3) (funext fun a => Fin.ext ?_)
  match a with
  | ⟨0, _⟩ => show win0_3.index t (0 : Fin 2) * 128 + 1 * p.val = 128 * t.val + p.val; rw [h3_0]; omega
  | ⟨1, _⟩ => show win0_3.index t (1 : Fin 2) * 4096 + 1 * k.val = k.val; rw [h3_1]; omega

theorem rows4 (c : Dev nD) (t : Fin cfg0.N) (p : Fin 128) :
    rowOf (iblk m c 4 t : S128x4096.Idx → EReal) p
      = rowOf ((m ((c : Thread nD τ).loc main_arg4)) : S8192x4096.Idx → EReal) (rowAt t p) := by
  obtain ⟨h0_0, h0_1, h1_0, h1_1, h2_0, h2_1, h3_0, h3_1, h4_0, h4_1, h17_0, h17_1, h18_0, h18_1, h5_0, h5_1, h6_0, h6_1, h7_0, h7_1, h8_0, h8_1, h9_0, h9_1, h10_0, h10_1, h11_0, h11_1, h12_0, h12_1, h13_0, h13_1, h14_0, h14_1, h15_0, h15_1, h16_0, h16_1⟩ := idx_facts t
  funext k
  rw [← V_main_arg4 m c]
  show V m c main_arg4 (((cfg0.win 4).blk t).view.emb (ix2 p k)) = V m c main_arg4 _
  refine congrArg (V m c main_arg4) (funext fun a => Fin.ext ?_)
  match a with
  | ⟨0, _⟩ => show win0_4.index t (0 : Fin 2) * 128 + 1 * p.val = 128 * t.val + p.val; rw [h4_0]; omega
  | ⟨1, _⟩ => show win0_4.index t (1 : Fin 2) * 4096 + 1 * k.val = k.val; rw [h4_1]; omega

theorem whole5 (c : Dev nD) (t : Fin cfg0.N) :
    (iblk m c 5 t : S1024x1024.Idx → EReal) = ((m ((c : Thread nD τ).loc main_arg5)) : S1024x1024.Idx → EReal) := by
  obtain ⟨h0_0, h0_1, h1_0, h1_1, h2_0, h2_1, h3_0, h3_1, h4_0, h4_1, h17_0, h17_1, h18_0, h18_1, h5_0, h5_1, h6_0, h6_1, h7_0, h7_1, h8_0, h8_1, h9_0, h9_1, h10_0, h10_1, h11_0, h11_1, h12_0, h12_1, h13_0, h13_1, h14_0, h14_1, h15_0, h15_1, h16_0, h16_1⟩ := idx_facts t
  rw [← hostW5 m c]
  funext j
  show V m c main_v0 (((cfg0.win 5).blk t).view.emb j) = V m c main_v0 j
  refine congrArg (V m c main_v0) (funext fun a => Fin.ext ?_)
  match a with
  | ⟨0, _⟩ => show win0_5.index t (0 : Fin 2) * 1024 + 1 * (j 0).val = (j 0).val; rw [h5_0]; omega
  | ⟨1, _⟩ => show win0_5.index t (1 : Fin 2) * 1024 + 1 * (j 1).val = (j 1).val; rw [h5_1]; omega

theorem whole6 (c : Dev nD) (t : Fin cfg0.N) :
    (iblk m c 6 t : S1024x1024.Idx → EReal) = ((m ((c : Thread nD τ).loc main_arg6)) : S1024x1024.Idx → EReal) := by
  obtain ⟨h0_0, h0_1, h1_0, h1_1, h2_0, h2_1, h3_0, h3_1, h4_0, h4_1, h17_0, h17_1, h18_0, h18_1, h5_0, h5_1, h6_0, h6_1, h7_0, h7_1, h8_0, h8_1, h9_0, h9_1, h10_0, h10_1, h11_0, h11_1, h12_0, h12_1, h13_0, h13_1, h14_0, h14_1, h15_0, h15_1, h16_0, h16_1⟩ := idx_facts t
  rw [← hostW6 m c]
  funext j
  show V m c main_v1 (((cfg0.win 6).blk t).view.emb j) = V m c main_v1 j
  refine congrArg (V m c main_v1) (funext fun a => Fin.ext ?_)
  match a with
  | ⟨0, _⟩ => show win0_6.index t (0 : Fin 2) * 1024 + 1 * (j 0).val = (j 0).val; rw [h6_0]; omega
  | ⟨1, _⟩ => show win0_6.index t (1 : Fin 2) * 1024 + 1 * (j 1).val = (j 1).val; rw [h6_1]; omega

theorem whole7 (c : Dev nD) (t : Fin cfg0.N) :
    (iblk m c 7 t : S1024x1024.Idx → EReal) = ((m ((c : Thread nD τ).loc main_arg7)) : S1024x1024.Idx → EReal) := by
  obtain ⟨h0_0, h0_1, h1_0, h1_1, h2_0, h2_1, h3_0, h3_1, h4_0, h4_1, h17_0, h17_1, h18_0, h18_1, h5_0, h5_1, h6_0, h6_1, h7_0, h7_1, h8_0, h8_1, h9_0, h9_1, h10_0, h10_1, h11_0, h11_1, h12_0, h12_1, h13_0, h13_1, h14_0, h14_1, h15_0, h15_1, h16_0, h16_1⟩ := idx_facts t
  rw [← hostW7 m c]
  funext j
  show V m c main_v2 (((cfg0.win 7).blk t).view.emb j) = V m c main_v2 j
  refine congrArg (V m c main_v2) (funext fun a => Fin.ext ?_)
  match a with
  | ⟨0, _⟩ => show win0_7.index t (0 : Fin 2) * 1024 + 1 * (j 0).val = (j 0).val; rw [h7_0]; omega
  | ⟨1, _⟩ => show win0_7.index t (1 : Fin 2) * 1024 + 1 * (j 1).val = (j 1).val; rw [h7_1]; omega

theorem whole8 (c : Dev nD) (t : Fin cfg0.N) :
    (iblk m c 8 t : S1024x1024.Idx → EReal) = ((m ((c : Thread nD τ).loc main_arg8)) : S1024x1024.Idx → EReal) := by
  obtain ⟨h0_0, h0_1, h1_0, h1_1, h2_0, h2_1, h3_0, h3_1, h4_0, h4_1, h17_0, h17_1, h18_0, h18_1, h5_0, h5_1, h6_0, h6_1, h7_0, h7_1, h8_0, h8_1, h9_0, h9_1, h10_0, h10_1, h11_0, h11_1, h12_0, h12_1, h13_0, h13_1, h14_0, h14_1, h15_0, h15_1, h16_0, h16_1⟩ := idx_facts t
  rw [← hostW8 m c]
  funext j
  show V m c main_v3 (((cfg0.win 8).blk t).view.emb j) = V m c main_v3 j
  refine congrArg (V m c main_v3) (funext fun a => Fin.ext ?_)
  match a with
  | ⟨0, _⟩ => show win0_8.index t (0 : Fin 2) * 1024 + 1 * (j 0).val = (j 0).val; rw [h8_0]; omega
  | ⟨1, _⟩ => show win0_8.index t (1 : Fin 2) * 1024 + 1 * (j 1).val = (j 1).val; rw [h8_1]; omega

theorem whole9 (c : Dev nD) (t : Fin cfg0.N) :
    (iblk m c 9 t : S1024x1024.Idx → EReal) = ((m ((c : Thread nD τ).loc main_arg9)) : S1024x1024.Idx → EReal) := by
  obtain ⟨h0_0, h0_1, h1_0, h1_1, h2_0, h2_1, h3_0, h3_1, h4_0, h4_1, h17_0, h17_1, h18_0, h18_1, h5_0, h5_1, h6_0, h6_1, h7_0, h7_1, h8_0, h8_1, h9_0, h9_1, h10_0, h10_1, h11_0, h11_1, h12_0, h12_1, h13_0, h13_1, h14_0, h14_1, h15_0, h15_1, h16_0, h16_1⟩ := idx_facts t
  rw [← hostW9 m c]
  funext j
  show V m c main_v4 (((cfg0.win 9).blk t).view.emb j) = V m c main_v4 j
  refine congrArg (V m c main_v4) (funext fun a => Fin.ext ?_)
  match a with
  | ⟨0, _⟩ => show win0_9.index t (0 : Fin 2) * 1024 + 1 * (j 0).val = (j 0).val; rw [h9_0]; omega
  | ⟨1, _⟩ => show win0_9.index t (1 : Fin 2) * 1024 + 1 * (j 1).val = (j 1).val; rw [h9_1]; omega

theorem whole10 (c : Dev nD) (t : Fin cfg0.N) :
    (iblk m c 10 t : S1024x1024.Idx → EReal) = ((m ((c : Thread nD τ).loc main_arg10)) : S1024x1024.Idx → EReal) := by
  obtain ⟨h0_0, h0_1, h1_0, h1_1, h2_0, h2_1, h3_0, h3_1, h4_0, h4_1, h17_0, h17_1, h18_0, h18_1, h5_0, h5_1, h6_0, h6_1, h7_0, h7_1, h8_0, h8_1, h9_0, h9_1, h10_0, h10_1, h11_0, h11_1, h12_0, h12_1, h13_0, h13_1, h14_0, h14_1, h15_0, h15_1, h16_0, h16_1⟩ := idx_facts t
  rw [← hostW10 m c]
  funext j
  show V m c main_v5 (((cfg0.win 10).blk t).view.emb j) = V m c main_v5 j
  refine congrArg (V m c main_v5) (funext fun a => Fin.ext ?_)
  match a with
  | ⟨0, _⟩ => show win0_10.index t (0 : Fin 2) * 1024 + 1 * (j 0).val = (j 0).val; rw [h10_0]; omega
  | ⟨1, _⟩ => show win0_10.index t (1 : Fin 2) * 1024 + 1 * (j 1).val = (j 1).val; rw [h10_1]; omega

theorem whole11 (c : Dev nD) (t : Fin cfg0.N) :
    (iblk m c 11 t : S1024x1024.Idx → EReal) = ((m ((c : Thread nD τ).loc main_arg11)) : S1024x1024.Idx → EReal) := by
  obtain ⟨h0_0, h0_1, h1_0, h1_1, h2_0, h2_1, h3_0, h3_1, h4_0, h4_1, h17_0, h17_1, h18_0, h18_1, h5_0, h5_1, h6_0, h6_1, h7_0, h7_1, h8_0, h8_1, h9_0, h9_1, h10_0, h10_1, h11_0, h11_1, h12_0, h12_1, h13_0, h13_1, h14_0, h14_1, h15_0, h15_1, h16_0, h16_1⟩ := idx_facts t
  rw [← hostW11 m c]
  funext j
  show V m c main_v6 (((cfg0.win 11).blk t).view.emb j) = V m c main_v6 j
  refine congrArg (V m c main_v6) (funext fun a => Fin.ext ?_)
  match a with
  | ⟨0, _⟩ => show win0_11.index t (0 : Fin 2) * 1024 + 1 * (j 0).val = (j 0).val; rw [h11_0]; omega
  | ⟨1, _⟩ => show win0_11.index t (1 : Fin 2) * 1024 + 1 * (j 1).val = (j 1).val; rw [h11_1]; omega

theorem whole12 (c : Dev nD) (t : Fin cfg0.N) :
    (iblk m c 12 t : S1024x1024.Idx → EReal) = ((m ((c : Thread nD τ).loc main_arg12)) : S1024x1024.Idx → EReal) := by
  obtain ⟨h0_0, h0_1, h1_0, h1_1, h2_0, h2_1, h3_0, h3_1, h4_0, h4_1, h17_0, h17_1, h18_0, h18_1, h5_0, h5_1, h6_0, h6_1, h7_0, h7_1, h8_0, h8_1, h9_0, h9_1, h10_0, h10_1, h11_0, h11_1, h12_0, h12_1, h13_0, h13_1, h14_0, h14_1, h15_0, h15_1, h16_0, h16_1⟩ := idx_facts t
  rw [← hostW12 m c]
  funext j
  show V m c main_v7 (((cfg0.win 12).blk t).view.emb j) = V m c main_v7 j
  refine congrArg (V m c main_v7) (funext fun a => Fin.ext ?_)
  match a with
  | ⟨0, _⟩ => show win0_12.index t (0 : Fin 2) * 1024 + 1 * (j 0).val = (j 0).val; rw [h12_0]; omega
  | ⟨1, _⟩ => show win0_12.index t (1 : Fin 2) * 1024 + 1 * (j 1).val = (j 1).val; rw [h12_1]; omega

theorem bias13 (c : Dev nD) (t : Fin cfg0.N) :
    rowOf (iblk m c 13 t : S1x1024.Idx → EReal) 0 = vecOf ((m ((c : Thread nD τ).loc main_arg13)) : S1024.Idx → EReal) := by
  obtain ⟨h0_0, h0_1, h1_0, h1_1, h2_0, h2_1, h3_0, h3_1, h4_0, h4_1, h17_0, h17_1, h18_0, h18_1, h5_0, h5_1, h6_0, h6_1, h7_0, h7_1, h8_0, h8_1, h9_0, h9_1, h10_0, h10_1, h11_0, h11_1, h12_0, h12_1, h13_0, h13_1, h14_0, h14_1, h15_0, h15_1, h16_0, h16_1⟩ := idx_facts t
  rw [← hostB13 m c]
  funext q
  show V m c main_v8 (((cfg0.win 13).blk t).view.emb (ix2 0 q)) = V m c main_v8 (ix2 0 q)
  refine congrArg (V m c main_v8) (funext fun a => Fin.ext ?_)
  match a with
  | ⟨0, _⟩ => show win0_13.index t (0 : Fin 2) * 1 + 1 * 0 = 0; rw [h13_0]
  | ⟨1, _⟩ => show win0_13.index t (1 : Fin 2) * 1024 + 1 * q.val = q.val; rw [h13_1]; omega

theorem bias14 (c : Dev nD) (t : Fin cfg0.N) :
    rowOf (iblk m c 14 t : S1x1024.Idx → EReal) 0 = vecOf ((m ((c : Thread nD τ).loc main_arg14)) : S1024.Idx → EReal) := by
  obtain ⟨h0_0, h0_1, h1_0, h1_1, h2_0, h2_1, h3_0, h3_1, h4_0, h4_1, h17_0, h17_1, h18_0, h18_1, h5_0, h5_1, h6_0, h6_1, h7_0, h7_1, h8_0, h8_1, h9_0, h9_1, h10_0, h10_1, h11_0, h11_1, h12_0, h12_1, h13_0, h13_1, h14_0, h14_1, h15_0, h15_1, h16_0, h16_1⟩ := idx_facts t
  rw [← hostB14 m c]
  funext q
  show V m c main_v9 (((cfg0.win 14).blk t).view.emb (ix2 0 q)) = V m c main_v9 (ix2 0 q)
  refine congrArg (V m c main_v9) (funext fun a => Fin.ext ?_)
  match a with
  | ⟨0, _⟩ => show win0_14.index t (0 : Fin 2) * 1 + 1 * 0 = 0; rw [h14_0]
  | ⟨1, _⟩ => show win0_14.index t (1 : Fin 2) * 1024 + 1 * q.val = q.val; rw [h14_1]; omega

theorem bias15 (c : Dev nD) (t : Fin cfg0.N) :
    rowOf (iblk m c 15 t : S1x1024.Idx → EReal) 0 = vecOf ((m ((c : Thread nD τ).loc main_arg15)) : S1024.Idx → EReal) := by
  obtain ⟨h0_0, h0_1, h1_0, h1_1, h2_0, h2_1, h3_0, h3_1, h4_0, h4_1, h17_0, h17_1, h18_0, h18_1, h5_0, h5_1, h6_0, h6_1, h7_0, h7_1, h8_0, h8_1, h9_0, h9_1, h10_0, h10_1, h11_0, h11_1, h12_0, h12_1, h13_0, h13_1, h14_0, h14_1, h15_0, h15_1, h16_0, h16_1⟩ := idx_facts t
  rw [← hostB15 m c]
  funext q
  show V m c main_v10 (((cfg0.win 15).blk t).view.emb (ix2 0 q)) = V m c main_v10 (ix2 0 q)
  refine congrArg (V m c main_v10) (funext fun a => Fin.ext ?_)
  match a with
  | ⟨0, _⟩ => show win0_15.index t (0 : Fin 2) * 1 + 1 * 0 = 0; rw [h15_0]
  | ⟨1, _⟩ => show win0_15.index t (1 : Fin 2) * 1024 + 1 * q.val = q.val; rw [h15_1]; omega

theorem bias16 (c : Dev nD) (t : Fin cfg0.N) :
    rowOf (iblk m c 16 t : S1x1024.Idx → EReal) 0 = vecOf ((m ((c : Thread nD τ).loc main_arg16)) : S1024.Idx → EReal) := by
  obtain ⟨h0_0, h0_1, h1_0, h1_1, h2_0, h2_1, h3_0, h3_1, h4_0, h4_1, h17_0, h17_1, h18_0, h18_1, h5_0, h5_1, h6_0, h6_1, h7_0, h7_1, h8_0, h8_1, h9_0, h9_1, h10_0, h10_1, h11_0, h11_1, h12_0, h12_1, h13_0, h13_1, h14_0, h14_1, h15_0, h15_1, h16_0, h16_1⟩ := idx_facts t
  rw [← hostB16 m c]
  funext q
  show V m c main_v11 (((cfg0.win 16).blk t).view.emb (ix2 0 q)) = V m c main_v11 (ix2 0 q)
  refine congrArg (V m c main_v11) (funext fun a => Fin.ext ?_)
  match a with
  | ⟨0, _⟩ => show win0_16.index t (0 : Fin 2) * 1 + 1 * 0 = 0; rw [h16_0]
  | ⟨1, _⟩ => show win0_16.index t (1 : Fin 2) * 1024 + 1 * q.val = q.val; rw [h16_1]; omega

/-! ## The whole-array functions, and what a point writes back -/

/-- The new cell state as a function of the argument arrays. -/
abbrev cellArray (c : Dev nD) : S8192x1024.Idx → EReal :=
  newC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg13)) (m ((c : Thread nD τ).loc main_arg14)) (m ((c : Thread nD τ).loc main_arg15))

/-- The new hidden state as a function of the argument arrays. -/
abbrev hiddenArray (c : Dev nD) : S8192x1024.Idx → EReal :=
  newH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- Where entry (p, q) of point `t`'s output block lies in the output array: row `128 t + p`, entry `q`. -/
theorem out_at17 (t : Fin cfg0.N) (p : Fin 128) (q : Fin 1024) :
    ((cfg0.win 17).blk t).view.emb (ix2 p q) = ix2 (rowAt t p) q := by
  obtain ⟨h0_0, h0_1, h1_0, h1_1, h2_0, h2_1, h3_0, h3_1, h4_0, h4_1, h17_0, h17_1, h18_0, h18_1, h5_0, h5_1, h6_0, h6_1, h7_0, h7_1, h8_0, h8_1, h9_0, h9_1, h10_0, h10_1, h11_0, h11_1, h12_0, h12_1, h13_0, h13_1, h14_0, h14_1, h15_0, h15_1, h16_0, h16_1⟩ := idx_facts t
  funext a
  apply Fin.ext
  match a with
  | ⟨0, _⟩ => show win0_17.index t (0 : Fin 2) * 128 + 1 * p.val = 128 * t.val + p.val; rw [h17_0]; omega
  | ⟨1, _⟩ => show win0_17.index t (1 : Fin 2) * 1024 + 1 * q.val = q.val; rw [h17_1]; omega
theorem out_at18 (t : Fin cfg0.N) (p : Fin 128) (q : Fin 1024) :
    ((cfg0.win 18).blk t).view.emb (ix2 p q) = ix2 (rowAt t p) q := by
  obtain ⟨h0_0, h0_1, h1_0, h1_1, h2_0, h2_1, h3_0, h3_1, h4_0, h4_1, h17_0, h17_1, h18_0, h18_1, h5_0, h5_1, h6_0, h6_1, h7_0, h7_1, h8_0, h8_1, h9_0, h9_1, h10_0, h10_1, h11_0, h11_1, h12_0, h12_1, h13_0, h13_1, h14_0, h14_1, h15_0, h15_1, h16_0, h16_1⟩ := idx_facts t
  funext a
  apply Fin.ext
  match a with
  | ⟨0, _⟩ => show win0_18.index t (0 : Fin 2) * 128 + 1 * p.val = 128 * t.val + p.val; rw [h18_0]; omega
  | ⟨1, _⟩ => show win0_18.index t (1 : Fin 2) * 1024 + 1 * q.val = q.val; rw [h18_1]; omega

/-- What point `t` writes back to the cell-state array is block `t` of `cellArray`. -/
theorem flushedC (c : Dev nD) (t : Fin cfg0.N) :
    (dats m 0 c).flushed 18 t = ((cfg0.win 18).blk t).view.read (Elt Ideal) (cellArray m c) := by
  rw [Value.flushed18]
  unfold out0_18
  rw [View.canon_unit_zero zero_offsets]
  simp only [View.ld_unit_zero (S := S128x1024) zero_offsets, View.ld_unit_zero (S := S128x4096) zero_offsets,
    View.ld_unit_zero (S := S1024x1024) zero_offsets, View.ld_unit_zero (S := S1x1024) zero_offsets]
  funext y
  obtain ⟨p, q, rfl⟩ : ∃ (p : Fin 128) (q : Fin 1024), y = ix2 p q := ⟨y 0, y 1, eq_ix2 y⟩
  show k0_pay1 (iblk m c 2 t) (k0_pay8 (iblk m c 0 t) (iblk m c 1 t) (iblk m c 3 t) (iblk m c 4 t) (iblk m c 6 t) (iblk m c 14 t) (iblk m c 10 t))
      (k0_pay11 (iblk m c 1 t) (k0_pay5 (iblk m c 4 t)) (k0_pay9 (iblk m c 0 t) (iblk m c 3 t) (iblk m c 5 t)) (k0_pay10 (iblk m c 13 t)) (iblk m c 9 t))
      (k0_pay13 (iblk m c 0 t) (k0_pay4 (iblk m c 3 t)) (k0_pay7 (iblk m c 4 t)) (iblk m c 7 t) (iblk m c 15 t) (iblk m c 11 t)) (ix2 p q)
    = cellArray m c (((cfg0.win 18).blk t).view.emb (ix2 p q))
  rw [out_at18]
  refine (storedC_at (iblk m c 0 t) (iblk m c 1 t) (iblk m c 2 t) (iblk m c 3 t) (iblk m c 4 t) (iblk m c 5 t) (iblk m c 6 t) (iblk m c 7 t) (iblk m c 9 t) (iblk m c 10 t) (iblk m c 11 t) (iblk m c 13 t) (iblk m c 14 t) (iblk m c 15 t) p q).trans ?_
  rw [rows0 m c t p, rows1 m c t p, rows2 m c t p, rows3 m c t p, rows4 m c t p, whole5 m c t, whole6 m c t, whole7 m c t, whole9 m c t, whole10 m c t, whole11 m c t, bias13 m c t, bias14 m c t, bias15 m c t]
  rfl

/-- What point `t` writes back to the hidden-state array is block `t` of `hiddenArray`. -/
theorem flushedH (c : Dev nD) (t : Fin cfg0.N) :
    (dats m 0 c).flushed 17 t = ((cfg0.win 17).blk t).view.read (Elt Ideal) (hiddenArray m c) := by
  rw [Value.flushed17]
  unfold out0_17
  rw [View.canon_unit_zero zero_offsets]
  simp only [View.ld_unit_zero (S := S128x1024) zero_offsets, View.ld_unit_zero (S := S128x4096) zero_offsets,
    View.ld_unit_zero (S := S1024x1024) zero_offsets, View.ld_unit_zero (S := S1x1024) zero_offsets]
  funext y
  obtain ⟨p, q, rfl⟩ : ∃ (p : Fin 128) (q : Fin 1024), y = ix2 p q := ⟨y 0, y 1, eq_ix2 y⟩
  show k0_pay2 (iblk m c 2 t) (k0_pay8 (iblk m c 0 t) (iblk m c 1 t) (iblk m c 3 t) (iblk m c 4 t) (iblk m c 6 t) (iblk m c 14 t) (iblk m c 10 t))
      (k0_pay11 (iblk m c 1 t) (k0_pay5 (iblk m c 4 t)) (k0_pay9 (iblk m c 0 t) (iblk m c 3 t) (iblk m c 5 t)) (k0_pay10 (iblk m c 13 t)) (iblk m c 9 t))
      (k0_pay12 (iblk m c 0 t) (iblk m c 1 t) (k0_pay3 (iblk m c 3 t)) (k0_pay6 (iblk m c 4 t)) (iblk m c 8 t) (iblk m c 16 t) (iblk m c 12 t))
      (k0_pay13 (iblk m c 0 t) (k0_pay4 (iblk m c 3 t)) (k0_pay7 (iblk m c 4 t)) (iblk m c 7 t) (iblk m c 15 t) (iblk m c 11 t)) (ix2 p q)
    = hiddenArray m c (((cfg0.win 17).blk t).view.emb (ix2 p q))
  rw [out_at17]
  refine (storedH_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) p q).trans ?_
  rw [rows0 m c t p, rows1 m c t p, rows2 m c t p, rows3 m c t p, rows4 m c t p, whole5 m c t, whole6 m c t, whole7 m c t, whole8 m c t, whole9 m c t, whole10 m c t, whole11 m c t, whole12 m c t, bias13 m c t, bias14 m c t, bias15 m c t, bias16 m c t]
  rfl

/-! ## The 64 blocks tile each result array -/

/-- An index of the array is in point `t`'s block iff each coordinate is in the block's range on its axis. -/
theorem mem_blk17 (t : Fin cfg0.N) (i : S8192x1024.Idx) :
    i ∈ ((cfg0.win 17).blk t).view.set ↔ ∀ a : Fin 2, win0_17.index t a * S128x1024.size a ≤ (i a).val ∧ (i a).val < win0_17.index t a * S128x1024.size a + S128x1024.size a := by
  show i ∈ ((View.whole main_v12_0).slice (win0_17.rect t)).set ↔ _
  rw [View.set_slice_whole, Rect.mem_set_unit]
  exact Iff.rfl

/-- Every index of the array is in the block of the point its row belongs to. -/
theorem cover17 (i : S8192x1024.Idx) :
    ∃ t : Fin cfg0.N, (cfg0.win 17).flush t = true ∧ i ∈ ((cfg0.win 17).blk t).view.set := by
  have hi0 : (i 0).val < 8192 := (i 0).isLt
  have hi1 : (i 1).val < 1024 := (i 1).isLt
  have hN : grid0.N = 64 := N_0
  let t : Fin cfg0.N := ⟨(i 0).val / 128, by show (i 0).val / 128 < grid0.N; omega⟩
  have htv : t.val = (i 0).val / 128 := rfl
  refine ⟨t, flush0_17 t, ?_⟩
  rw [mem_blk17]
  obtain ⟨h0_0, h0_1, h1_0, h1_1, h2_0, h2_1, h3_0, h3_1, h4_0, h4_1, h17_0, h17_1, h18_0, h18_1, h5_0, h5_1, h6_0, h6_1, h7_0, h7_1, h8_0, h8_1, h9_0, h9_1, h10_0, h10_1, h11_0, h11_1, h12_0, h12_1, h13_0, h13_1, h14_0, h14_1, h15_0, h15_1, h16_0, h16_1⟩ := idx_facts t
  intro a
  match a with
  | ⟨0, _⟩ => show win0_17.index t (0 : Fin 2) * 128 ≤ (i 0).val ∧ (i 0).val < win0_17.index t (0 : Fin 2) * 128 + 128; rw [h17_0, htv]; omega
  | ⟨1, _⟩ => show win0_17.index t (1 : Fin 2) * 1024 ≤ (i 1).val ∧ (i 1).val < win0_17.index t (1 : Fin 2) * 1024 + 1024; rw [h17_1]; omega

/-- An index of the array is in point `t`'s block iff each coordinate is in the block's range on its axis. -/
theorem mem_blk18 (t : Fin cfg0.N) (i : S8192x1024.Idx) :
    i ∈ ((cfg0.win 18).blk t).view.set ↔ ∀ a : Fin 2, win0_18.index t a * S128x1024.size a ≤ (i a).val ∧ (i a).val < win0_18.index t a * S128x1024.size a + S128x1024.size a := by
  show i ∈ ((View.whole main_v12_1).slice (win0_18.rect t)).set ↔ _
  rw [View.set_slice_whole, Rect.mem_set_unit]
  exact Iff.rfl

/-- Every index of the array is in the block of the point its row belongs to. -/
theorem cover18 (i : S8192x1024.Idx) :
    ∃ t : Fin cfg0.N, (cfg0.win 18).flush t = true ∧ i ∈ ((cfg0.win 18).blk t).view.set := by
  have hi0 : (i 0).val < 8192 := (i 0).isLt
  have hi1 : (i 1).val < 1024 := (i 1).isLt
  have hN : grid0.N = 64 := N_0
  let t : Fin cfg0.N := ⟨(i 0).val / 128, by show (i 0).val / 128 < grid0.N; omega⟩
  have htv : t.val = (i 0).val / 128 := rfl
  refine ⟨t, flush0_18 t, ?_⟩
  rw [mem_blk18]
  obtain ⟨h0_0, h0_1, h1_0, h1_1, h2_0, h2_1, h3_0, h3_1, h4_0, h4_1, h17_0, h17_1, h18_0, h18_1, h5_0, h5_1, h6_0, h6_1, h7_0, h7_1, h8_0, h8_1, h9_0, h9_1, h10_0, h10_1, h11_0, h11_1, h12_0, h12_1, h13_0, h13_1, h14_0, h14_1, h15_0, h15_1, h16_0, h16_1⟩ := idx_facts t
  intro a
  match a with
  | ⟨0, _⟩ => show win0_18.index t (0 : Fin 2) * 128 ≤ (i 0).val ∧ (i 0).val < win0_18.index t (0 : Fin 2) * 128 + 128; rw [h18_0, htv]; omega
  | ⟨1, _⟩ => show win0_18.index t (1 : Fin 2) * 1024 ≤ (i 1).val ∧ (i 1).val < win0_18.index t (1 : Fin 2) * 1024 + 1024; rw [h18_1]; omega

/-- After the run the hidden-state array is `hiddenArray` … -/
theorem finalH (c : Dev nD) : (dats m 0 c).arrAt 17 cfg0.N = hiddenArray m c :=
  (dats m 0 c).arrAt_eq_of_cover 17 (hiddenArray m c) (fun t _ => flushedH m c t) cover17

/-- … and the cell-state array is `cellArray`. -/
theorem finalC (c : Dev nD) : (dats m 0 c).arrAt 18 cfg0.N = cellArray m c :=
  (dats m 0 c).arrAt_eq_of_cover 18 (cellArray m c) (fun t _ => flushedC m c t) cover18

/-! ## The run, read -/

/-- Every weakly fair execution of the kernel program ends with the two result arrays at `hiddenArray` and
    `cellArray` of the argument arrays, and the arguments unchanged. -/
theorem run : θ_run defs (onTc (τ := τ) (main (F := Ideal))) ⟨m, fun _ => 0, ρ⟩ fun r => ∀ c : Dev nD,
      r.2.mem ((c : Thread nD τ).loc main_v12_0) = hiddenArray m c
      ∧ r.2.mem ((c : Thread nD τ).loc main_v12_1) = cellArray m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (finalH m c), (h c).2.1.trans (finalC m c), (h c).2.2⟩)
    (Value.run_blocks m ρ)

end Cert.KernelIdeal.Whole

end
-- ==== Proof.RefCell.lean ====
/-
  The reference, read entry by entry at the extended reals.

  jnp forms each gate on the whole batch: the batch array times a quarter of the mask array, contracted with a
  weight matrix stored [out, in] along both second axes, plus the bias broadcast over the batch, plus the
  hidden-side contraction; the logistic function is spelled 1 / (1 + exp(−z)). Read at batch row r and entry q a
  gate's pre-activation is `Cert.Lstm.pre` of row r of each array, the spelled-out quotient is the logistic function
  itself, and the two results are `Cert.Lstm.newH` and `Cert.Lstm.newC` of the argument arrays.
-/
import proofs.«133295_j35476429865299_1_alg».proof.Proof.Gen.ReferenceIdeal.Read
import proofs.«133295_j35476429865299_1_alg».proof.Proof.LstmSpec
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.Cell

open Cert.ReferenceIdeal Cert.ReferenceIdeal.Gen Cert.Lstm Idealize.ShloMosaic Idealize.ShloMosaic.ValueIdx

/-! ## The contraction at an entry -/

/-- The host's contraction of a batch array with a weight matrix along both second axes, at batch row `r` and
    entry `q`: Σ_k l[r, k] · W[q, k]. -/
theorem dot_at (l : FVec Ideal S8192x1024 .f32) (W : FVec Ideal S1024x1024 .f32) (r : Fin 8192) (q : Fin 1024) :
    Host.dotGeneral dot_S8192x1024_S1024x1024_S8192x1024_1_1_0_0_n_n none l W (ix2 r q)
      = ∑ k : Fin 1024, l (ix2 r k) * W (ix2 q k) := by
  simp only [Host.dotGeneral]
  rw [Ideal.dotGeneral_apply, ← Equiv.sum_comp (ValueIdx.contrEquiv1 dot_S8192x1024_S1024x1024_S8192x1024_1_1_0_0_n_n 1024 rfl rfl).symm]
  refine Finset.sum_congr rfl fun k _ => ?_
  have hk := ValueIdx.contrEquiv1_symm_val dot_S8192x1024_S1024x1024_S8192x1024_1_1_0_0_n_n 1024 rfl rfl k
  have el : dot_S8192x1024_S1024x1024_S8192x1024_1_1_0_0_n_n.lhsIdx (ix2 r q) ((ValueIdx.contrEquiv1 dot_S8192x1024_S1024x1024_S8192x1024_1_1_0_0_n_n 1024 rfl rfl).symm k) = ix2 r k := funext fun a => Fin.ext (by
    match a with
    | ⟨0, _⟩ => exact Read.lhs_main_v9_0 _ _
    | ⟨1, _⟩ => exact (Read.lhs_main_v9_1 _ _).trans hk)
  have er : dot_S8192x1024_S1024x1024_S8192x1024_1_1_0_0_n_n.rhsIdx (ix2 r q) ((ValueIdx.contrEquiv1 dot_S8192x1024_S1024x1024_S8192x1024_1_1_0_0_n_n 1024 rfl rfl).symm k) = ix2 q k := funext fun a => Fin.ext (by
    match a with
    | ⟨0, _⟩ => exact Read.rhs_main_v9_0 _ _
    | ⟨1, _⟩ => exact (Read.rhs_main_v9_1 _ _).trans hk)
  rw [el, er]

/-- A masked batch array through a weight matrix, at batch row `r` and entry `q`. -/
theorem lin_at (a ms : FVec Ideal S8192x1024 .f32) (W : FVec Ideal S1024x1024 .f32) (r : Fin 8192) (q : Fin 1024) :
    Host.dotGeneral dot_S8192x1024_S1024x1024_S8192x1024_1_1_0_0_n_n none (mulf a ms) W (ix2 r q)
      = lin (rowOf a r) (rowOf ms r) W q := by
  rw [dot_at]
  rfl

/-- The bias, broadcast first to one row and then over the batch, read at any batch row. -/
theorem bias_at (b : FVec Ideal S1024 .f32) (r : Fin 8192) (q : Fin 1024) :
    broadcastInDim S8192x1024 ![0, 1] bcast_S1x1024_S8192x1024_0_1 (broadcastInDim S1x1024 ![1] bcast_S1024_S1x1024_1 b) (ix2 r q)
      = vecOf b q := by
  show Read.val_main_v11 (F := Ideal) b (ix2 r q) = _
  rw [Read.val_main_v11_apply, Read.val_main_v10_apply]
  unfold vecOf
  congr 1
  funext a
  match a with
  | ⟨0, _⟩ => rfl

/-- The splat of the word of 1.0 is the extended real 1 at every index. -/
theorem one_at (i : S8192x1024.Idx) :
    broadcastInDim S8192x1024 ![] bcast_S_S8192x1024 (constant (F := Ideal) S_ .f32 0x3F800000#32) i = 1 := by
  show Read.val_main_v18 (F := Ideal) i = 1
  rw [Read.val_main_v18_apply, Read.val_main_cst_apply]
  exact Ideal.ofBits_one_f32

/-! ## The four quarters of a mask array, row by row -/

theorem quarter0 (v : FVec Ideal S8192x4096 .f32) (r : Fin 8192) :
    rowOf (extractStridedSlice S8192x1024 ![0, 0] v slices_S8192x4096_S8192x1024_0_0) r = seg 0 (rowOf v r) := by
  funext k
  exact extractStridedSlice_apply ![0, 0] v slices_S8192x4096_S8192x1024_0_0 (ix2 r k) _ (fun a => match a with
    | ⟨0, _⟩ => by show r.val = 0 + r.val; omega
    | ⟨1, _⟩ => by show 1024 * 0 + k.val = 0 + k.val; omega)
theorem quarter1 (v : FVec Ideal S8192x4096 .f32) (r : Fin 8192) :
    rowOf (extractStridedSlice S8192x1024 ![0, 1024] v slices_S8192x4096_S8192x1024_0_1024) r = seg 1 (rowOf v r) := by
  funext k
  exact extractStridedSlice_apply ![0, 1024] v slices_S8192x4096_S8192x1024_0_1024 (ix2 r k) _ (fun a => match a with
    | ⟨0, _⟩ => by show r.val = 0 + r.val; omega
    | ⟨1, _⟩ => by show 1024 * 1 + k.val = 1024 + k.val; omega)
theorem quarter2 (v : FVec Ideal S8192x4096 .f32) (r : Fin 8192) :
    rowOf (extractStridedSlice S8192x1024 ![0, 2048] v slices_S8192x4096_S8192x1024_0_2048) r = seg 2 (rowOf v r) := by
  funext k
  exact extractStridedSlice_apply ![0, 2048] v slices_S8192x4096_S8192x1024_0_2048 (ix2 r k) _ (fun a => match a with
    | ⟨0, _⟩ => by show r.val = 0 + r.val; omega
    | ⟨1, _⟩ => by show 1024 * 2 + k.val = 2048 + k.val; omega)
theorem quarter3 (v : FVec Ideal S8192x4096 .f32) (r : Fin 8192) :
    rowOf (extractStridedSlice S8192x1024 ![0, 3072] v slices_S8192x4096_S8192x1024_0_3072) r = seg 3 (rowOf v r) := by
  funext k
  exact extractStridedSlice_apply ![0, 3072] v slices_S8192x4096_S8192x1024_0_3072 (ix2 r k) _ (fun a => match a with
    | ⟨0, _⟩ => by show r.val = 0 + r.val; omega
    | ⟨1, _⟩ => by show 1024 * 3 + k.val = 3072 + k.val; omega)

/-! ## A gate on the whole batch -/

/-- A gate's pre-activation array: input-side contraction plus bias, plus hidden-side contraction. -/
def gateR (a ma : FVec Ideal S8192x1024 .f32) (W : FVec Ideal S1024x1024 .f32) (b : FVec Ideal S1024 .f32)
    (a' ma' : FVec Ideal S8192x1024 .f32) (W' : FVec Ideal S1024x1024 .f32) : FVec Ideal S8192x1024 .f32 :=
  addf (addf (Host.dotGeneral dot_S8192x1024_S1024x1024_S8192x1024_1_1_0_0_n_n none (mulf a ma) W)
        (broadcastInDim S8192x1024 ![0, 1] bcast_S1x1024_S8192x1024_0_1 (broadcastInDim S1x1024 ![1] bcast_S1024_S1x1024_1 b)))
    (Host.dotGeneral dot_S8192x1024_S1024x1024_S8192x1024_1_1_0_0_n_n none (mulf a' ma') W')

theorem gateR_at (a ma : FVec Ideal S8192x1024 .f32) (W : FVec Ideal S1024x1024 .f32) (b : FVec Ideal S1024 .f32)
    (a' ma' : FVec Ideal S8192x1024 .f32) (W' : FVec Ideal S1024x1024 .f32) (r : Fin 8192) (q : Fin 1024) :
    gateR a ma W b a' ma' W' (ix2 r q)
      = pre (rowOf a r) (rowOf ma r) W (vecOf b) (rowOf a' r) (rowOf ma' r) W' q := by
  unfold gateR
  rw [addf_apply, addf_apply, lin_at, bias_at, lin_at]
  rfl

/-- jnp's spelling of the logistic function on an array. -/
def sigmoidR (z : FVec Ideal S8192x1024 .f32) : FVec Ideal S8192x1024 .f32 :=
  Host.divf (broadcastInDim S8192x1024 ![] bcast_S_S8192x1024 (constant S_ .f32 0x3F800000#32))
    (addf (broadcastInDim S8192x1024 ![] bcast_S_S8192x1024 (constant S_ .f32 0x3F800000#32)) (Host.exp (Host.negf z)))

/-- 1 / (1 + exp(−z)) is the logistic function of the extended reals, by its definition. -/
theorem sigmoidR_at (z : FVec Ideal S8192x1024 .f32) (i : S8192x1024.Idx) : sigmoidR z i = Ideal.logistic (z i) := by
  show Ideal.div (broadcastInDim S8192x1024 ![] bcast_S_S8192x1024 (constant (F := Ideal) S_ .f32 0x3F800000#32) i)
      (broadcastInDim S8192x1024 ![] bcast_S_S8192x1024 (constant (F := Ideal) S_ .f32 0x3F800000#32) i + Ideal.exp (-(z i))) = _
  rw [one_at]
  rfl

theorem tanhR_at (z : FVec Ideal S8192x1024 .f32) (i : S8192x1024.Idx) : Host.tanh z i = Ideal.tanh (z i) := rfl

/-! ## The two results -/

/-- The reference's cell-state result as gates. -/
theorem stageC_eq (x0 x1 x2 : FVec Ideal S8192x1024 .f32) (x3 x4 : FVec Ideal S8192x4096 .f32)
    (x5 x6 x7 x9 x10 x11 : FVec Ideal S1024x1024 .f32) (x13 x14 x15 : FVec Ideal S1024 .f32) :
    Read.val_main_v61 (F := Ideal) x0 x1 x2 x3 x4 x5 x6 x7 x9 x10 x11 x13 x14 x15
      = addf (mulf (sigmoidR (gateR x0 (extractStridedSlice S8192x1024 ![0, 0] x3 slices_S8192x4096_S8192x1024_0_0) x6 x14
                      x1 (extractStridedSlice S8192x1024 ![0, 0] x4 slices_S8192x4096_S8192x1024_0_0) x10)) x2)
          (mulf (sigmoidR (gateR x0 (extractStridedSlice S8192x1024 ![0, 1024] x3 slices_S8192x4096_S8192x1024_0_1024) x5 x13
                      x1 (extractStridedSlice S8192x1024 ![0, 1024] x4 slices_S8192x4096_S8192x1024_0_1024) x9))
            (Host.tanh (gateR x0 (extractStridedSlice S8192x1024 ![0, 3072] x3 slices_S8192x4096_S8192x1024_0_3072) x7 x15
                      x0 (extractStridedSlice S8192x1024 ![0, 3072] x4 slices_S8192x4096_S8192x1024_0_3072) x11))) := rfl

/-- The reference's cell-state result is `newC` of the arguments. -/
theorem stageC (x0 x1 x2 : FVec Ideal S8192x1024 .f32) (x3 x4 : FVec Ideal S8192x4096 .f32)
    (x5 x6 x7 x9 x10 x11 : FVec Ideal S1024x1024 .f32) (x13 x14 x15 : FVec Ideal S1024 .f32) :
    Read.val_main_v61 (F := Ideal) x0 x1 x2 x3 x4 x5 x6 x7 x9 x10 x11 x13 x14 x15
      = newC x0 x1 x2 x3 x4 x5 x6 x7 x9 x10 x11 x13 x14 x15 := by
  funext i
  obtain ⟨r, q, rfl⟩ : ∃ (r : Fin 8192) (q : Fin 1024), i = ix2 r q := ⟨i 0, i 1, eq_ix2 i⟩
  rw [stageC_eq, addf_apply, mulf_apply, mulf_apply, sigmoidR_at, sigmoidR_at, tanhR_at, gateR_at, gateR_at, gateR_at,
    quarter0, quarter0, quarter1, quarter1, quarter3, quarter3]
  rfl

/-- The reference's hidden-state result as the output gate times tanh of the cell-state result. -/
theorem stageH_eq (x0 x1 x2 : FVec Ideal S8192x1024 .f32) (x3 x4 : FVec Ideal S8192x4096 .f32)
    (x5 x6 x7 x8 x9 x10 x11 x12 : FVec Ideal S1024x1024 .f32) (x13 x14 x15 x16 : FVec Ideal S1024 .f32) :
    Read.val_main_v63 (F := Ideal) x0 x1 x2 x3 x4 x5 x6 x7 x8 x9 x10 x11 x12 x13 x14 x15 x16
      = mulf (sigmoidR (gateR x0 (extractStridedSlice S8192x1024 ![0, 2048] x3 slices_S8192x4096_S8192x1024_0_2048) x8 x16
                      x1 (extractStridedSlice S8192x1024 ![0, 2048] x4 slices_S8192x4096_S8192x1024_0_2048) x12))
          (Host.tanh (Read.val_main_v61 (F := Ideal) x0 x1 x2 x3 x4 x5 x6 x7 x9 x10 x11 x13 x14 x15)) := rfl

/-- The reference's hidden-state result is `newH` of the arguments. -/
theorem stageH (x0 x1 x2 : FVec Ideal S8192x1024 .f32) (x3 x4 : FVec Ideal S8192x4096 .f32)
    (x5 x6 x7 x8 x9 x10 x11 x12 : FVec Ideal S1024x1024 .f32) (x13 x14 x15 x16 : FVec Ideal S1024 .f32) :
    Read.val_main_v63 (F := Ideal) x0 x1 x2 x3 x4 x5 x6 x7 x8 x9 x10 x11 x12 x13 x14 x15 x16
      = newH x0 x1 x2 x3 x4 x5 x6 x7 x8 x9 x10 x11 x12 x13 x14 x15 x16 := by
  funext i
  obtain ⟨r, q, rfl⟩ : ∃ (r : Fin 8192) (q : Fin 1024), i = ix2 r q := ⟨i 0, i 1, eq_ix2 i⟩
  rw [stageH_eq, mulf_apply, tanhR_at, stageC, sigmoidR_at, gateR_at, quarter2, quarter2]
  rfl

end Cert.ReferenceIdeal.Cell

end
-- ==== Proof.lean ====
/-
  An LSTM cell step with multiplicative input masks: a kernel that tiles the batch into 64 blocks of 128 rows and
  keeps the eight weight matrices (narrowed to bf16) and four bias rows resident, against jnp's whole-batch
  formulation in f32.

  At the extended reals narrowing to bf16 is the identity, the kernel's matrix product into a zero accumulator and
  the host's contraction are the same sum Σ_k a[r, k] · W[q, k], the kernel's logistic operation is by definition the
  quotient 1 / (1 + exp(−z)) that jnp spells out, and both sides add products and biases in the same association.
  So both programs compute, at batch row r and entry q, the functions `Cert.Lstm.newH` and `Cert.Lstm.newC` of the
  argument arrays (Proof/LstmSpec.lean): the reference by reading its operations at an index (Proof/RefCell.lean), the
  kernel block by block (Proof/KernelCell.lean: one grid point; Proof/KernelWhole.lean: block t is rows 128 t … 128 t + 127,
  and the blocks tile the array). No step uses that an input is finite.

  The three frame claims are the generated frame runs (the reference's is its generated run with the results
  dropped); the kernel's idealization rewrote nothing, so `preserves` is trivial.
-/
import proofs.«133295_j35476429865299_1_alg».proof.Defs
import proofs.«133295_j35476429865299_1_alg».proof.Proof.Gen.Kernel
import proofs.«133295_j35476429865299_1_alg».proof.Proof.Gen.Kernel.Skeleton
import proofs.«133295_j35476429865299_1_alg».proof.Proof.Gen.Kernel.Launch
import proofs.«133295_j35476429865299_1_alg».proof.Proof.Gen.Kernel.Points
import proofs.«133295_j35476429865299_1_alg».proof.Proof.Gen.Kernel.Frame
import proofs.«133295_j35476429865299_1_alg».proof.Proof.Gen.KernelIdeal
import proofs.«133295_j35476429865299_1_alg».proof.Proof.Gen.KernelIdeal.Skeleton
import proofs.«133295_j35476429865299_1_alg».proof.Proof.Gen.KernelIdeal.Launch
import proofs.«133295_j35476429865299_1_alg».proof.Proof.Gen.KernelIdeal.Points
import proofs.«133295_j35476429865299_1_alg».proof.Proof.Gen.KernelIdeal.Frame
import proofs.«133295_j35476429865299_1_alg».proof.Proof.Gen.ReferenceIdeal
import proofs.«133295_j35476429865299_1_alg».proof.Proof.Gen.Pre_finite_inputs
import proofs.«133295_j35476429865299_1_alg».proof.Proof.Gen.KernelIdeal.Value
import proofs.«133295_j35476429865299_1_alg».proof.Proof.Gen.ReferenceIdeal.Run
import proofs.«133295_j35476429865299_1_alg».proof.Proof.Gen.ReferenceIdeal.Read
import proofs.«133295_j35476429865299_1_alg».proof.Proof.KernelWhole
import proofs.«133295_j35476429865299_1_alg».proof.Proof.RefCell
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with what it says of the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the seventeen arguments both programs end with the hidden-state result at
    `newH` and the cell-state result at `newC` of those arguments. -/
theorem algebraic : Cert.algebraic_KernelIdeal_ReferenceIdeal := by
  intro m ρ m' ρ' _ hagree
  refine ⟨fun c => Cert.KernelIdeal.Whole.hiddenArray m c, fun c => Cert.KernelIdeal.Whole.cellArray m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16⟩ := hagree c
    rw [Cert.ReferenceIdeal.Read.val_main_v63_eq, Cert.ReferenceIdeal.Cell.stageH,
      a0, a1, a2, a3, a4, a5, a6, a7, a8, a9, a10, a11, a12, a13, a14, a15, a16]
  · obtain ⟨a0, a1, a2, a3, a4, a5, a6, a7, a8, a9, a10, a11, a12, a13, a14, a15, a16⟩ := hagree c
    rw [Cert.ReferenceIdeal.Read.val_main_v61_eq, Cert.ReferenceIdeal.Cell.stageC,
      a0, a1, a2, a3, a4, a5, a6, a7, a9, a10, a11, a13, a14, a15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
